-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S25000x16 : Shape := ⟨2, ![25000, 16]⟩
abbrev S25000x7 : Shape := ⟨2, ![25000, 7]⟩
abbrev S3300000x7 : Shape := ⟨2, ![3300000, 7]⟩
abbrev S1x7 : Shape := ⟨2, ![1, 7]⟩

abbrev nBuf : Space → Nat
  | .hbm => 92
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x1, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S25000x16, .f32⟩
  | .local _ .vmem, ⟨6, _⟩ => ⟨S25000x16, .f32⟩
  | .local _ .vmem, ⟨7, _⟩ => ⟨S16x7, .f32⟩
  | .local _ .vmem, ⟨8, _⟩ => ⟨S25000x7, .f32⟩
  | .local _ .vmem, ⟨9, _⟩ => ⟨S25000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S25000x16_S25000x16_0_0 : ∀ a, (![0, 0] : Fin 2 → Nat) a + S25000x16.size a ≤ S25000x16.size a
  h_S25000x16 : 0 < S25000x16.numel
  shapeCasts_S25000x16_S25000x16 : S25000x16.ShapeCasts S25000x16
  inb_S16x7_S16x7_0_0 : ∀ a, (![0, 0] : Fin 2 → Nat) a + S16x7.size a ≤ S16x7.size a
  h_S16x7 : 0 < S16x7.numel
  inb_S25000x7_S25000x7_0_0 : ∀ a, (![0, 0] : Fin 2 → Nat) a + S25000x7.size a ≤ S25000x7.size a
  h_S25000x7 : 0 < S25000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S25000x16_S16x7_S25000x7_1_0_0_1_n_n_wf : DotDims.WF S25000x16 S16x7 S25000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S100000x16.size a
  hwx1_0 : ∀ i : grid1.Coords, EltTy.bits .f32 = 32 ∨ (Rect.block (s := S100000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x7.size a ≤ S100000x7.size a
  hwx1_2 : ∀ i : grid1.Coords, EltTy.bits .f32 = 32 ∨ (Rect.block (s := S100000x7) S25000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S25000x16_S16x7_S25000x7_1_0_0_1_n_n : DotDims S25000x16 S16x7 S25000x7 where
  lhsContracting := [1]
  rhsContracting := [0]
  lhsNonContracting := [0]
  rhsNonContracting := [1]
  lhsBatch := []
  rhsBatch := []
  wf := dot_S25000x16_S16x7_S25000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S25000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x1, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.Aggregate.lean ====
/-
  The two-layer graph convolution as ONE function of the argument arrays.

  An edge list of 3,200,000 (source, target) pairs over 100,000 nodes gets one self loop per node: 3,300,000 edges.
  A node's degree counts the edges that end in it; an edge from `s` to `t` weighs `d(s)^(-1/2) · d(t)^(-1/2)`
  (zero where the degree is not positive). One propagation step sends a node-feature matrix `h` to
  `out[t] = ∑ over edges (s → t) of weight · h[s]`, plus a bias row; the network is
  `propagate (relu (propagate (x · W1) + b1) · W2) + b2`. Everything but the two matrix products is written below
  once, generic in the float family, as the host operations spell it; the two products are, over the extended reals,
  `(A · B)[r, c] = ∑ k, A[r, k] · B[k, c]`, whichever way a program tiles the rows of `A`.
-/
import proofs.«166135_j8787503087873_1_alg».proof.KernelIdeal
import proofs.«166135_j8787503087873_1_alg».proof.Proof.Gen.KernelIdeal
import Idealize.ShloMosaic.PureOps.Ideal

noncomputable section

namespace Cert.Gcn

open Cert.KernelIdeal Cert.KernelIdeal.Gen Idealize.ShloMosaic Idealize.ShloMosaic.TcCoe Idealize.SL.Sem

section AnyFamily
variable {F : FTy → Type} [FloatOps F]

/-- One row of the edge list with the self loops `0, 1, …, 99999` appended: the edges' sources (row 0). -/
def sources (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' targets (row 1), self loops appended. -/
def targets (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node index as an indexing operation reads it (a negative one counts from the end), as a column of start indices. -/
def startIndices (r : (⟨S3300000, .i32⟩ : BufTy).Contents (Elt F)) : (⟨S3300000x1, .i32⟩ : BufTy).Contents (Elt F) :=
  broadcastInDim S3300000x1 ![0] bcast_S3300000_S3300000x1_0 (select (cmpi .slt r (broadcastInDim S3300000 ![] bcast_S_S3300000 (constantI S_ 32 0#32))) (addi r (broadcastInDim S3300000 ![] bcast_S_S3300000 (constantI S_ 32 100000#32))) r)

/-- A node's degree: one added at the target of every edge. -/
def degree (col : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 col) (broadcastInDim S3300000 ![] bcast_S_S3300000 (constant S_ .f32 0x3F800000#32))

/-- `d^(-1/2)` of the degree raised to at least one, where the degree is positive; zero elsewhere. -/
def invSqrtDegree (col : (⟨S3300000, .i32⟩ : BufTy).Contents (Elt F)) : (⟨S100000, .f32⟩ : BufTy).Contents (Elt F) :=
  select (cmpf (F := F) .ogt (degree col) (broadcastInDim S100000 ![] bcast_S_S100000 (constant S_ .f32 0x00000000#32))) (Host.rsqrt (maximumf (degree col) (broadcastInDim S100000 ![] bcast_S_S100000 (constant S_ .f32 0x3F800000#32)))) (broadcastInDim S100000 ![] bcast_S_S100000 (id (constant S_ .f32 0x00000000#32)))

/-- A per-node factor `f` turned into a per-edge weight: `f` at the edge's source times `f` at its target. -/
def weightOf (f : (⟨S100000, .f32⟩ : BufTy).Contents (Elt F)) (row col : (⟨S3300000, .i32⟩ : BufTy).Contents (Elt F)) : (⟨S3300000, .f32⟩ : BufTy).Contents (Elt F) :=
  mulf (Host.gather gather_S100000_S3300000x1_S3300000_n_0_n_n_0_1_1 f (startIndices row)) (Host.gather gather_S100000_S3300000x1_S3300000_n_0_n_n_0_1_1 f (startIndices col))

/-- An edge's weight: `d(s)^(-1/2) · d(t)^(-1/2)`. -/
def edgeWeight (row col : (⟨S3300000, .i32⟩ : BufTy).Contents (Elt F)) : (⟨S3300000, .f32⟩ : BufTy).Contents (Elt F) :=
  weightOf (invSqrtDegree col) row col

/-- One propagation step on 16 features: gather each edge's source row, scale by the edge's weight, add into the
    target's row, then add the bias row to every node. -/
def propagate16 (h : (⟨S100000x16, .f32⟩ : BufTy).Contents (Elt F)) (row col : (⟨S3300000, .i32⟩ : BufTy).Contents (Elt F))
    (w : (⟨S3300000, .f32⟩ : BufTy).Contents (Elt F)) (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 col) (mulf (Host.gather gather_S100000x16_S3300000x1_S3300000x16_1_0_n_n_0_1_116 h (startIndices row)) (broadcastInDim S3300000x16 ![0, 1] bcast_S3300000x1_S3300000x16_0_1 (broadcastInDim S3300000x1 ![0] bcast_S3300000_S3300000x1_0 w)))) (broadcastInDim S100000x16 ![0, 1] bcast_S1x16_S100000x16_0_1 (broadcastInDim S1x16 ![1] bcast_S16_S1x16_1 b))

/-- The hidden layer: the first propagation step, negative entries set to zero. -/
def hidden (h : (⟨S100000x16, .f32⟩ : BufTy).Contents (Elt F)) (row col : (⟨S3300000, .i32⟩ : BufTy).Contents (Elt F))
    (w : (⟨S3300000, .f32⟩ : BufTy).Contents (Elt F)) (b : (⟨S16, .f32⟩ : BufTy).Contents (Elt F)) : (⟨S100000x16, .f32⟩ : BufTy).Contents (Elt F) :=
  maximumf (propagate16 h row col w b) (broadcastInDim S100000x16 ![] bcast_S_S100000x16 (constant S_ .f32 0x00000000#32))

/-- The same propagation step on the 7 output classes. -/
def propagate7 (h : (⟨S100000x7, .f32⟩ : BufTy).Contents (Elt F)) (row col : (⟨S3300000, .i32⟩ : BufTy).Contents (Elt F))
    (w : (⟨S3300000, .f32⟩ : BufTy).Contents (Elt F)) (b : (⟨S7, .f32⟩ : BufTy).Contents (Elt F)) : (⟨S100000x7, .f32⟩ : BufTy).Contents (Elt F) :=
  addf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 col) (mulf (Host.gather gather_S100000x7_S3300000x1_S3300000x7_1_0_n_n_0_1_17 h (startIndices row)) (broadcastInDim S3300000x7 ![0, 1] bcast_S3300000x1_S3300000x7_0_1 (broadcastInDim S3300000x1 ![0] bcast_S3300000_S3300000x1_0 w)))) (broadcastInDim S100000x7 ![0, 1] bcast_S1x7_S100000x7_0_1 (broadcastInDim S1x7 ![1] bcast_S7_S1x7_1 b))

/-- The network with its two matrix products left as parameters: `propagate (relu (propagate (x ·₁ W1) + b1) ·₂ W2) + b2`
    over the edges' sources, targets and weights. -/
def outputWith (times1 : (⟨S100000x512, .f32⟩ : BufTy).Contents (Elt F) → (⟨S512x16, .f32⟩ : BufTy).Contents (Elt F) → (⟨S100000x16, .f32⟩ : BufTy).Contents (Elt F))
    (times2 : (⟨S100000x16, .f32⟩ : BufTy).Contents (Elt F) → (⟨S16x7, .f32⟩ : BufTy).Contents (Elt F) → (⟨S100000x7, .f32⟩ : BufTy).Contents (Elt F))
    (x : (⟨S100000x512, .f32⟩ : BufTy).Contents (Elt F)) (e : (⟨S2x3200000, .i32⟩ : BufTy).Contents (Elt F)) (W1 : (⟨S512x16, .f32⟩ : BufTy).Contents (Elt F))
    (b1 : (⟨S16, .f32⟩ : BufTy).Contents (Elt F)) (W2 : (⟨S16x7, .f32⟩ : BufTy).Contents (Elt F)) (b2 : (⟨S7, .f32⟩ : BufTy).Contents (Elt F)) :
    (⟨S100000x7, .f32⟩ : BufTy).Contents (Elt F) :=
  propagate7 (times2 (hidden (times1 x W1) (sources e) (targets e) (edgeWeight (sources e) (targets e)) b1) W2)
    (sources e) (targets e) (edgeWeight (sources e) (targets e)) b2

end AnyFamily

/-! ## The two matrix products over the extended reals -/

/-- Entry `(r, k)` of the node features, for output entry `(r, c)`. -/
abbrev xAt (i : S100000x16.Idx) (k : Fin 512) : S100000x512.Idx := fun a => match a with
  | ⟨0, _⟩ => ⟨(i 0).val, (i 0).isLt⟩
  | ⟨1, _⟩ => ⟨k.val, k.isLt⟩
/-- Entry `(k, c)` of the first weight matrix. -/
abbrev w1At (i : S100000x16.Idx) (k : Fin 512) : S512x16.Idx := fun a => match a with
  | ⟨0, _⟩ => ⟨k.val, k.isLt⟩
  | ⟨1, _⟩ => ⟨(i 1).val, (i 1).isLt⟩
/-- Entry `(r, k)` of the hidden layer, for output entry `(r, c)`. -/
abbrev hAt (i : S100000x7.Idx) (k : Fin 16) : S100000x16.Idx := fun a => match a with
  | ⟨0, _⟩ => ⟨(i 0).val, (i 0).isLt⟩
  | ⟨1, _⟩ => ⟨k.val, k.isLt⟩
/-- Entry `(k, c)` of the second weight matrix. -/
abbrev w2At (i : S100000x7.Idx) (k : Fin 16) : S16x7.Idx := fun a => match a with
  | ⟨0, _⟩ => ⟨k.val, k.isLt⟩
  | ⟨1, _⟩ => ⟨(i 1).val, (i 1).isLt⟩

/-- `x · W1`: entry `(r, c)` is `∑ k < 512, x[r, k] · W1[k, c]`. -/
def timesW1 (x : FVec Ideal S100000x512 .f32) (W : FVec Ideal S512x16 .f32) : FVec Ideal S100000x16 .f32 :=
  fun i => ∑ k : Fin 512, x (xAt i k) * W (w1At i k)

/-- `h · W2`: entry `(r, c)` is `∑ k < 16, h[r, k] · W2[k, c]`. -/
def timesW2 (h : FVec Ideal S100000x16 .f32) (W : FVec Ideal S16x7 .f32) : FVec Ideal S100000x7 .f32 :=
  fun i => ∑ k : Fin 16, h (hAt i k) * W (w2At i k)

/-- The network's output as one function of the six arguments, over the extended reals. -/
def output (x : FVec Ideal S100000x512 .f32) (e : (⟨S2x3200000, .i32⟩ : BufTy).Contents (Elt Ideal)) (W1 : FVec Ideal S512x16 .f32)
    (b1 : FVec Ideal S16 .f32) (W2 : FVec Ideal S16x7 .f32) (b2 : FVec Ideal S7 .f32) : FVec Ideal S100000x7 .f32 :=
  outputWith (F := Ideal) timesW1 timesW2 x e W1 b1 W2 b2

end Cert.Gcn

end
-- ==== Proof.LibDotAt.lean ====
/-
  A matrix product whose dimension numbers contract ONE axis, read at one output index over the extended reals.

  Both the kernel's product into a zero accumulator and the host's product are, at an output index `j`, the sum over
  the contraction positions of the left operand's entry times the right operand's entry at the two operand indices
  the dimension numbers pair with `j` and the position. With a single contracted axis of extent `K` a position is
  its one coordinate, so the sum runs over `k < K`; a caller names the two operand indices as functions of `k`
  (`li`, `ri`) and shows that they are the dimension numbers' own. No finiteness is used: the statement is the
  definition of the product re-indexed along a bijection, and `0 + s = s` holds for every extended real `s`.
-/
import Idealize.ShloMosaic.PureOps.Ideal.Laws
import Idealize.ShloMosaic.Lib.ValueIdx

noncomputable section

namespace Cert.Lib.DotAt

open Idealize.ShloMosaic Idealize.ShloMosaic.ValueIdx

variable {sl sr so : Shape} {φ₁ φ₂ : FTy}

/-- The host's product at an output index: the sum over the contracted extent of the products of the operands' entries
    at the indices `li k`, `ri k`, which are the dimension numbers' operand indices at position `k`. -/
theorem dotGeneral_at (d : DotDims sl sr so) (prec : Option ContractPrecision) (K : Nat) (hr : d.contr.rank = 1)
    (hs : d.contr.size ⟨0, by omega⟩ = K) (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec lhs rhs j = ∑ k : Fin K, lhs (li k) * rhs (ri k) := by
  show FloatOps.dotGeneral d prec _ lhs rhs j = _
  rw [Ideal.dotGeneral_apply, ← Equiv.sum_comp (contrEquiv1 d K hr hs).symm]
  exact Finset.sum_congr rfl fun k _ => by rw [hl k, hrr k]

/-- The kernel's product accumulated into the zero vector, at an output index: the same sum. -/
theorem matmul_zero_at (d : DotDims sl sr so) (prec : Option ContractPrecision) (K : Nat) (hr : d.contr.rank = 1)
    (hs : d.contr.size ⟨0, by omega⟩ = K) (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec lhs rhs (constant so .f32 0x00000000#32) j = ∑ k : Fin K, lhs (li k) * rhs (ri k) := by
  show FloatOps.matmul d prec lhs rhs (constant so .f32 0x00000000#32) j = _
  rw [Ideal.matmul_constant_zero_apply, ← Equiv.sum_comp (contrEquiv1 d K hr hs).symm]
  exact Finset.sum_congr rfl fun k _ => by rw [hl k, hrr k]

end Cert.Lib.DotAt

end
-- ==== Proof.RowBlocks0.lean ====
/-
  The first matrix product, off the row blocks the first pallas_call writes.

  The call walks 20 grid points; point `t` reads rows `5000·t … 5000·t + 4999` of the node features (all 512
  columns) and the whole first weight matrix, and writes rows `5000·t … 5000·t + 4999` of the product. Over the
  extended reals the block product's entry `(r, c)` is `∑ k < 512, block[r, k] · W1[k, c]` (the change of format
  on the way in is the identity, the accumulator starts at zero), and `block[r, k]` is `x[5000·t + r, k]`: the
  block is the rows `5000·t …` of `x · W1`. The 20 blocks tile the 100,000 rows (row `r` lies in block `r / 5000`),
  so the array the call leaves is `x · W1`, whatever contents `V` the call finds in its operand arrays.
-/
import proofs.«166135_j8787503087873_1_alg».proof.Proof.Gen.KernelIdeal.Frame
import proofs.«166135_j8787503087873_1_alg».proof.Proof.Aggregate
import proofs.«166135_j8787503087873_1_alg».proof.Proof.LibDotAt
import Idealize.ShloMosaic.Lib.Pipeline.Value

set_option maxRecDepth 16384

noncomputable section

namespace Cert.Gcn.Rows0

open Cert.KernelIdeal Cert.KernelIdeal.Gen Cert.Gcn Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The call's two operand arrays as it finds them, at their literal types. -/
abbrev features (c : Dev nD) : FVec Ideal S100000x512 .f32 := V c main_arg0
abbrev weights (c : Dev nD) : FVec Ideal S512x16 .f32 := V c main_arg2

/-! ## The block product at an index -/

/-- The dimension numbers pair output entry `(r, c)` and position `k` with the left entry `(r, k)` … -/
theorem lhs_axis0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs_axis1 (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
/-- … and with the right entry `(k, c)`. -/
theorem rhs_axis0 (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
theorem rhs_axis1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- Entry `(r, k)` of a block of node features, for the block product's entry `(r, c)`. -/
abbrev rowEntry (j : S5000x16.Idx) (k : Fin 512) : S5000x512.Idx := fun a => match a with
  | ⟨0, _⟩ => ⟨(j 0).val, (j 0).isLt⟩
  | ⟨1, _⟩ => ⟨k.val, k.isLt⟩
/-- Entry `(k, c)` of the weight matrix. -/
abbrev colEntry (j : S5000x16.Idx) (k : Fin 512) : S512x16.Idx := fun a => match a with
  | ⟨0, _⟩ => ⟨k.val, k.isLt⟩
  | ⟨1, _⟩ => ⟨(j 1).val, (j 1).isLt⟩

/-- What the body stores, at entry `(r, c)`: `∑ k < 512, block[r, k] · W[k, c]`. -/
theorem stored_apply (x0 : Vec Ideal S5000x512 .f32) (x1 : Vec Ideal S512x16 .f32) (j : S5000x16.Idx) :
    k0_pay1 (F := Ideal) x0 x1 j = ∑ k : Fin 512, x0 (rowEntry j k) * x1 (colEntry j k) := by
  unfold k0_pay1
  show matmul dot_S5000x512_S512x16_S5000x16_1_0_0_1_n_n none (truncf (F := Ideal) .bf16 x0 bitsLt_bf16_f32) (truncf (F := Ideal) .bf16 x1 bitsLt_bf16_f32) (constant S5000x16 .f32 0x00000000#32) j = _
  refine Cert.Lib.DotAt.matmul_zero_at dot_S5000x512_S512x16_S5000x16_1_0_0_1_n_n none 512 rfl rfl (truncf (F := Ideal) .bf16 x0 bitsLt_bf16_f32) (truncf (F := Ideal) .bf16 x1 bitsLt_bf16_f32) j (rowEntry j) (colEntry j) (fun k => ?_) (fun k => ?_)
  · have hk := contrEquiv1_symm_val dot_S5000x512_S512x16_S5000x16_1_0_0_1_n_n 512 rfl rfl k
    exact funext fun a => Fin.ext (by
      match a with
      | ⟨0, _⟩ => exact lhs_axis0 _ _
      | ⟨1, _⟩ => exact (lhs_axis1 _ _).trans hk)
  · have hk := contrEquiv1_symm_val dot_S5000x512_S512x16_S5000x16_1_0_0_1_n_n 512 rfl rfl k
    exact funext fun a => Fin.ext (by
      match a with
      | ⟨0, _⟩ => exact (rhs_axis0 _ _).trans hk
      | ⟨1, _⟩ => exact rhs_axis1 _ _)

/-! ## The blocks -/

/-- The printed index maps over the grid: the row block of the features and of the product is the point's number,
    every other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its row block of `x · W1`. -/
theorem block_eq (c : Dev nD) (t : Fin cfg0.N) :
    (dat0 (F := Ideal) V c).flushed 2 t
      = ((cfg0.win 2).blk t).view.read (Elt Ideal) (timesW1 (V c main_arg0) (V c main_arg2)) := by
  show (cfg0.win 2).cut (grid0.coords t) ((dat0 (F := Ideal) V c).after 2 t) = _
  rw [after0_2]
  unfold out0_2
  rw [View.canon_unit_zero offsets_zero]
  simp only [View.ld_unit_zero (S := S5000x512) offsets_zero, View.ld_unit_zero (S := S512x16) offsets_zero]
  obtain ⟨e0, e1, e2, e3, e4, e5⟩ := block_indices t
  funext j
  show k0_pay1 (F := Ideal) (iblk0 V c 0 t) (iblk0 V c 1 t) j = timesW1 (V c main_arg0) (V c main_arg2) (((cfg0.win 2).blk t).view.emb j)
  refine (stored_apply (iblk0 V c 0 t) (iblk0 V c 1 t) j).trans ?_
  unfold timesW1
  refine Finset.sum_congr rfl fun k _ => ?_
  show features V c (((cfg0.win 0).blk t).view.emb (rowEntry j k)) * weights V c (((cfg0.win 1).blk t).view.emb (colEntry j k))
    = features V c (xAt (((cfg0.win 2).blk t).view.emb j) k) * weights V c (w1At (((cfg0.win 2).blk t).view.emb j) k)
  have h0 : ((cfg0.win 0).blk t).view.emb (rowEntry j k) = xAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (colEntry j k) = w1At (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [h0, h1]

/-- An index of the product is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- Row `r` lies in block `r / 5000`: the blocks cover the product. -/
theorem blocks_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The array the first call leaves is `x · W1` of the operand arrays it found. -/
theorem product_eq (c : Dev nD) :
    (dat0 (F := Ideal) V c).arrAt 2 cfg0.N = timesW1 (V c main_arg0) (V c main_arg2) :=
  (dat0 (F := Ideal) V c).arrAt_eq_of_cover 2 (timesW1 (V c main_arg0) (V c main_arg2)) (fun t _ => block_eq V c t) blocks_cover

end Cert.Gcn.Rows0

end
-- ==== Proof.RowBlocks1.lean ====
/-
  The second matrix product, off the row blocks the second pallas_call writes.

  The call walks 4 grid points; point `t` reads rows `25000·t … 25000·t + 24999` of the hidden layer (all 16
  columns) and the whole second weight matrix, and writes the same rows of the product. The body casts its block to
  the shape it already has (the identity), changes format (the identity over the extended reals) and multiplies into a
  zero accumulator: entry `(r, c)` of what it stores is `∑ k < 16, block[r, k] · W2[k, c]`, and `block[r, k]` is
  `hidden[25000·t + r, k]`. The 4 blocks tile the 100,000 rows (row `r` lies in block `r / 25000`), so the array
  the call leaves is `hidden · W2` of the operand arrays it found.
-/
import proofs.«166135_j8787503087873_1_alg».proof.Proof.Gen.KernelIdeal.Frame
import proofs.«166135_j8787503087873_1_alg».proof.Proof.Aggregate
import proofs.«166135_j8787503087873_1_alg».proof.Proof.LibDotAt
import Idealize.ShloMosaic.Lib.Pipeline.Value

set_option maxRecDepth 16384

noncomputable section

namespace Cert.Gcn.Rows1

open Cert.KernelIdeal Cert.KernelIdeal.Gen Cert.Gcn Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The call's two operand arrays as it finds them, at their literal types. -/
abbrev features (c : Dev nD) : FVec Ideal S100000x16 .f32 := V c main_v49
abbrev weights (c : Dev nD) : FVec Ideal S16x7 .f32 := V c main_arg4

/-! ## The block product at an index -/

/-- The dimension numbers pair output entry `(r, c)` and position `k` with the left entry `(r, k)` … -/
theorem lhs_axis0 (j : S25000x7.Idx) (q : dot_S25000x16_S16x7_S25000x7_1_0_0_1_n_n.contr.Idx) :
    (dot_S25000x16_S16x7_S25000x7_1_0_0_1_n_n.lhsIdx j q 0).val = (j 0).val := by
  unfold DotDims.lhsIdx
  rw [dif_neg (show ¬(0 : Fin S25000x16.rank) ∈ dot_S25000x16_S16x7_S25000x7_1_0_0_1_n_n.lhsBatch by decide), dif_pos (show (0 : Fin S25000x16.rank) ∈ dot_S25000x16_S16x7_S25000x7_1_0_0_1_n_n.lhsNonContracting by decide)]
  rfl
theorem lhs_axis1 (j : S25000x7.Idx) (q : dot_S25000x16_S16x7_S25000x7_1_0_0_1_n_n.contr.Idx) :
    (dot_S25000x16_S16x7_S25000x7_1_0_0_1_n_n.lhsIdx j q 1).val = (q ⟨0, by decide⟩).val :=
  dot_S25000x16_S16x7_S25000x7_1_0_0_1_n_n.lhsIdx_val_of_single rfl j q
/-- … and with the right entry `(k, c)`. -/
theorem rhs_axis0 (j : S25000x7.Idx) (q : dot_S25000x16_S16x7_S25000x7_1_0_0_1_n_n.contr.Idx) :
    (dot_S25000x16_S16x7_S25000x7_1_0_0_1_n_n.rhsIdx j q 0).val = (q ⟨0, by decide⟩).val :=
  dot_S25000x16_S16x7_S25000x7_1_0_0_1_n_n.rhsIdx_val_of_single rfl j q
theorem rhs_axis1 (j : S25000x7.Idx) (q : dot_S25000x16_S16x7_S25000x7_1_0_0_1_n_n.contr.Idx) :
    (dot_S25000x16_S16x7_S25000x7_1_0_0_1_n_n.rhsIdx j q 1).val = (j 1).val := by
  unfold DotDims.rhsIdx
  rw [dif_neg (show ¬(1 : Fin S16x7.rank) ∈ dot_S25000x16_S16x7_S25000x7_1_0_0_1_n_n.rhsBatch by decide), dif_pos (show (1 : Fin S16x7.rank) ∈ dot_S25000x16_S16x7_S25000x7_1_0_0_1_n_n.rhsNonContracting by decide)]
  rfl

/-- Entry `(r, k)` of a block of the hidden layer, for the block product's entry `(r, c)`. -/
abbrev rowEntry (j : S25000x7.Idx) (k : Fin 16) : S25000x16.Idx := fun a => match a with
  | ⟨0, _⟩ => ⟨(j 0).val, (j 0).isLt⟩
  | ⟨1, _⟩ => ⟨k.val, k.isLt⟩
/-- Entry `(k, c)` of the weight matrix. -/
abbrev colEntry (j : S25000x7.Idx) (k : Fin 16) : S16x7.Idx := fun a => match a with
  | ⟨0, _⟩ => ⟨k.val, k.isLt⟩
  | ⟨1, _⟩ => ⟨(j 1).val, (j 1).isLt⟩

/-- What the body stores, at entry `(r, c)`: `∑ k < 16, block[r, k] · W[k, c]` (the cast to the block's own shape
    is the identity). -/
theorem stored_apply (x0 : Vec Ideal S25000x16 .f32) (x1 : Vec Ideal S16x7 .f32) (j : S25000x7.Idx) :
    k1_pay1 (F := Ideal) x0 x1 j = ∑ k : Fin 16, x0 (rowEntry j k) * x1 (colEntry j k) := by
  unfold k1_pay1
  show matmul dot_S25000x16_S16x7_S25000x7_1_0_0_1_n_n none (truncf (F := Ideal) .bf16 (shapeCast S25000x16 x0 shapeCasts_S25000x16_S25000x16) bitsLt_bf16_f32) (truncf (F := Ideal) .bf16 x1 bitsLt_bf16_f32) (constant S25000x7 .f32 0x00000000#32) j = _
  rw [shapeCast_self]
  refine Cert.Lib.DotAt.matmul_zero_at dot_S25000x16_S16x7_S25000x7_1_0_0_1_n_n none 16 rfl rfl (truncf (F := Ideal) .bf16 x0 bitsLt_bf16_f32) (truncf (F := Ideal) .bf16 x1 bitsLt_bf16_f32) j (rowEntry j) (colEntry j) (fun k => ?_) (fun k => ?_)
  · have hk := contrEquiv1_symm_val dot_S25000x16_S16x7_S25000x7_1_0_0_1_n_n 16 rfl rfl k
    exact funext fun a => Fin.ext (by
      match a with
      | ⟨0, _⟩ => exact lhs_axis0 _ _
      | ⟨1, _⟩ => exact (lhs_axis1 _ _).trans hk)
  · have hk := contrEquiv1_symm_val dot_S25000x16_S16x7_S25000x7_1_0_0_1_n_n 16 rfl rfl k
    exact funext fun a => Fin.ext (by
      match a with
      | ⟨0, _⟩ => exact (rhs_axis0 _ _).trans hk
      | ⟨1, _⟩ => exact rhs_axis1 _ _)

/-! ## The blocks -/

/-- The printed index maps over the grid: the row block of the hidden layer and of the product is the point's number,
    every other block index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is its row block of `hidden · W2`. -/
theorem block_eq (c : Dev nD) (t : Fin cfg1.N) :
    (dat1 (F := Ideal) V c).flushed 2 t
      = ((cfg1.win 2).blk t).view.read (Elt Ideal) (timesW2 (V c main_v49) (V c main_arg4)) := by
  show (cfg1.win 2).cut (grid1.coords t) ((dat1 (F := Ideal) V c).after 2 t) = _
  rw [after1_2]
  unfold out1_2
  rw [View.canon_unit_zero offsets_zero]
  simp only [View.ld_unit_zero (S := S25000x16) offsets_zero, View.ld_unit_zero (S := S16x7) offsets_zero]
  obtain ⟨e0, e1, e2, e3, e4, e5⟩ := block_indices t
  funext j
  show k1_pay1 (F := Ideal) (iblk1 V c 0 t) (iblk1 V c 1 t) j = timesW2 (V c main_v49) (V c main_arg4) (((cfg1.win 2).blk t).view.emb j)
  refine (stored_apply (iblk1 V c 0 t) (iblk1 V c 1 t) j).trans ?_
  unfold timesW2
  refine Finset.sum_congr rfl fun k _ => ?_
  show features V c (((cfg1.win 0).blk t).view.emb (rowEntry j k)) * weights V c (((cfg1.win 1).blk t).view.emb (colEntry j k))
    = features V c (hAt (((cfg1.win 2).blk t).view.emb j) k) * weights V c (w2At (((cfg1.win 2).blk t).view.emb j) k)
  have h0 : ((cfg1.win 0).blk t).view.emb (rowEntry j k) = hAt (((cfg1.win 2).blk t).view.emb j) k := by
    funext a; apply Fin.ext
    match a with
    | ⟨0, _⟩ => show win1_0.index t (0 : Fin 2) * 25000 + 1 * (j 0).val = win1_2.index t (0 : Fin 2) * 25000 + 1 * (j 0).val; omega
    | ⟨1, _⟩ => show win1_0.index t (1 : Fin 2) * 16 + 1 * k.val = k.val; omega
  have h1 : ((cfg1.win 1).blk t).view.emb (colEntry j k) = w2At (((cfg1.win 2).blk t).view.emb j) k := by
    funext a; apply Fin.ext
    match a with
    | ⟨0, _⟩ => show win1_1.index t (0 : Fin 2) * 16 + 1 * k.val = k.val; omega
    | ⟨1, _⟩ => show win1_1.index t (1 : Fin 2) * 7 + 1 * (j 1).val = win1_2.index t (1 : Fin 2) * 7 + 1 * (j 1).val; omega
  rw [h0, h1]

/-- An index of the product is in point `t`'s block iff each coordinate is in the block's range on its axis. -/
theorem mem_block (t : Fin cfg1.N) (i : S100000x7.Idx) :
    i ∈ ((cfg1.win 2).blk t).view.set ↔ ∀ a : Fin 2, win1_2.index t a * S25000x7.size a ≤ (i a).val ∧ (i a).val < win1_2.index t a * S25000x7.size a + S25000x7.size a := by
  show i ∈ ((View.whole main_v50).slice (win1_2.rect t)).set ↔ _
  rw [View.set_slice_whole, Rect.mem_set_unit]
  exact Iff.rfl

/-- Row `r` lies in block `r / 25000`: the blocks cover the product. -/
theorem blocks_cover (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 4 := N_1
  obtain ⟨t, ht⟩ : ∃ t : Fin cfg1.N, t.val = (i 0).val / 25000 := ⟨⟨(i 0).val / 25000, by rw [hN]; omega⟩, rfl⟩
  obtain ⟨-, -, -, -, e4, e5⟩ := block_indices t
  refine ⟨t, flush1_2 t, ?_⟩
  rw [mem_block]
  intro a
  match a with
  | ⟨0, _⟩ => show win1_2.index t (0 : Fin 2) * 25000 ≤ (i 0).val ∧ (i 0).val < win1_2.index t (0 : Fin 2) * 25000 + 25000; omega
  | ⟨1, _⟩ => show win1_2.index t (1 : Fin 2) * 7 ≤ (i 1).val ∧ (i 1).val < win1_2.index t (1 : Fin 2) * 7 + 7; omega

/-- The array the second call leaves is `hidden · W2` of the operand arrays it found. -/
theorem product_eq (c : Dev nD) :
    (dat1 (F := Ideal) V c).arrAt 2 cfg1.N = timesW2 (V c main_v49) (V c main_arg4) :=
  (dat1 (F := Ideal) V c).arrAt_eq_of_cover 2 (timesW2 (V c main_v49) (V c main_arg4)) (fun t _ => block_eq V c t) blocks_cover

end Cert.Gcn.Rows1

end
-- ==== Proof.Stretches.lean ====
/-
  The kernel program's three stretches of host operations, each read from ARBITRARY contents `U` of the buffers at
  its entry: what it leaves in the buffers later steps read, and which buffers it leaves alone.
    * the first stretch (21 + 3 + 19 operations) makes the edges' sources, targets and weights from the edge list
      and writes no argument;
    * the second (19 + 3) makes the hidden layer from the first product, the edges and the first bias;
    * the last (19) propagates the second product once more and adds the second bias.
  Stated over a variable `U`, no step opens the fold of an earlier one.
-/
import proofs.«166135_j8787503087873_1_alg».proof.Proof.Gen.KernelIdeal.Launch
import proofs.«166135_j8787503087873_1_alg».proof.Proof.Aggregate
import Idealize.ShloMosaic.Lib.StableHlo.Run

noncomputable section

namespace Cert.Gcn.Stretches

open Cert.KernelIdeal Cert.KernelIdeal.Gen Cert.Gcn Idealize.ShloMosaic Idealize.ShloMosaic.TcCoe Idealize.SL.Sem
open Idealize.ShloMosaic.StableHlo (after)

section Stretches
variable {F : FTy → Type} [FloatOps F] (U : Valuation τ sig (Elt F))

/-- The first 21 operations: the sources … -/
theorem first_sources : after hostOps0 U (Proc.devRef .tc main_v3) = sources (U (Proc.devRef .tc main_arg1)) := by
  after_results <;> rfl
/-- … the targets … -/
theorem first_targets : after hostOps0 U (Proc.devRef .tc main_v6) = targets (U (Proc.devRef .tc main_arg1)) := by
  after_results <;> rfl
/-- … where the degree is positive … -/
theorem first_positive : after hostOps0 U (Proc.devRef .tc main_v12)
    = cmpf (F := F) .ogt (degree (targets (U (Proc.devRef .tc main_arg1)))) (broadcastInDim S100000 ![] bcast_S_S100000 (constant S_ .f32 0x00000000#32)) := by
  after_results <;> rfl
/-- … the degree's inverse square root … -/
theorem first_rsqrt : after hostOps0 U (Proc.devRef .tc main_v15)
    = Host.rsqrt (maximumf (degree (targets (U (Proc.devRef .tc main_arg1)))) (broadcastInDim S100000 ![] bcast_S_S100000 (constant S_ .f32 0x3F800000#32))) := by
  after_results <;> rfl
/-- … and the zero that stands where the degree is not positive. -/
theorem first_zero : after hostOps0 U (Proc.devRef .tc main_cst_3) = constant (F := F) S_ .f32 0x00000000#32 := by
  after_results_simp

/-- The three operations of the selection: the per-node factor. -/
theorem select_factor : after hostOps0_1 U (Proc.devRef .tc main_v16)
    = select (U (Proc.devRef .tc main_v12)) (U (Proc.devRef .tc main_v15)) (broadcastInDim S100000 ![] bcast_S_S100000 (id (U (Proc.devRef .tc main_cst_3)))) := by
  after_results_simp <;> rfl
theorem select_keeps : after hostOps0_1 U (Proc.devRef .tc main_v3) = U (Proc.devRef .tc main_v3)
    ∧ after hostOps0_1 U (Proc.devRef .tc main_v6) = U (Proc.devRef .tc main_v6) := by
  refine ⟨?_, ?_⟩ <;> after_results_simp

/-- The next 19 operations: the edges' weights from the per-node factor. -/
theorem weights_of : after hostOps0_2 U (Proc.devRef .tc main_v31)
    = weightOf (U (Proc.devRef .tc main_v16)) (U (Proc.devRef .tc main_v3)) (U (Proc.devRef .tc main_v6)) := by
  after_results_simp <;> rfl
theorem weights_keeps : after hostOps0_2 U (Proc.devRef .tc main_v3) = U (Proc.devRef .tc main_v3)
    ∧ after hostOps0_2 U (Proc.devRef .tc main_v6) = U (Proc.devRef .tc main_v6) := by
  refine ⟨?_, ?_⟩ <;> after_results_simp

/-- The whole first stretch keeps the arguments it does not write … -/
theorem entry_keeps : after hostOps0_2 (after hostOps0_1 (after hostOps0 U)) (Proc.devRef .tc main_arg0) = U (Proc.devRef .tc main_arg0)
    ∧ after hostOps0_2 (after hostOps0_1 (after hostOps0 U)) (Proc.devRef .tc main_arg2) = U (Proc.devRef .tc main_arg2)
    ∧ after hostOps0_2 (after hostOps0_1 (after hostOps0 U)) (Proc.devRef .tc main_arg3) = U (Proc.devRef .tc main_arg3)
    ∧ after hostOps0_2 (after hostOps0_1 (after hostOps0 U)) (Proc.devRef .tc main_arg4) = U (Proc.devRef .tc main_arg4)
    ∧ after hostOps0_2 (after hostOps0_1 (after hostOps0 U)) (Proc.devRef .tc main_arg5) = U (Proc.devRef .tc main_arg5) := by
  refine ⟨?_, ?_, ?_, ?_, ?_⟩ <;> after_results_simp

/-- … and leaves the sources, the targets and the weights of the edge list. -/
theorem entry_sources : after hostOps0_2 (after hostOps0_1 (after hostOps0 U)) (Proc.devRef .tc main_v3) = sources (U (Proc.devRef .tc main_arg1)) := by
  rw [(weights_keeps _).1, (select_keeps _).1, first_sources]
theorem entry_targets : after hostOps0_2 (after hostOps0_1 (after hostOps0 U)) (Proc.devRef .tc main_v6) = targets (U (Proc.devRef .tc main_arg1)) := by
  rw [(weights_keeps _).2, (select_keeps _).2, first_targets]
theorem entry_weights : after hostOps0_2 (after hostOps0_1 (after hostOps0 U)) (Proc.devRef .tc main_v31)
    = edgeWeight (sources (U (Proc.devRef .tc main_arg1))) (targets (U (Proc.devRef .tc main_arg1))) := by
  rw [weights_of, select_factor, (select_keeps _).1, (select_keeps _).2, first_positive, first_rsqrt, first_zero, first_sources, first_targets]
  rfl

/-- The second stretch (19 operations, then the three of the rectifier): the hidden layer from the first product. -/
theorem middle_hidden : after hostOps1_1 (after hostOps1 U) (Proc.devRef .tc main_v49)
    = hidden (U (Proc.devRef .tc main_v32)) (U (Proc.devRef .tc main_v3)) (U (Proc.devRef .tc main_v6)) (U (Proc.devRef .tc main_v31)) (U (Proc.devRef .tc main_arg3)) := by
  after_results_simp <;> rfl
theorem middle_keeps : after hostOps1_1 (after hostOps1 U) (Proc.devRef .tc main_v3) = U (Proc.devRef .tc main_v3)
    ∧ after hostOps1_1 (after hostOps1 U) (Proc.devRef .tc main_v6) = U (Proc.devRef .tc main_v6)
    ∧ after hostOps1_1 (after hostOps1 U) (Proc.devRef .tc main_v31) = U (Proc.devRef .tc main_v31)
    ∧ after hostOps1_1 (after hostOps1 U) (Proc.devRef .tc main_arg4) = U (Proc.devRef .tc main_arg4)
    ∧ after hostOps1_1 (after hostOps1 U) (Proc.devRef .tc main_arg5) = U (Proc.devRef .tc main_arg5) := by
  refine ⟨?_, ?_, ?_, ?_, ?_⟩ <;> after_results_simp

/-- The last stretch: the second propagation step, from the second product. -/
theorem last_output : after hostOps2 U (Proc.devRef .tc main_v66)
    = propagate7 (U (Proc.devRef .tc main_v50)) (U (Proc.devRef .tc main_v3)) (U (Proc.devRef .tc main_v6)) (U (Proc.devRef .tc main_v31)) (U (Proc.devRef .tc main_arg5)) := by
  after_results_simp <;> rfl

end Stretches

end Cert.Gcn.Stretches

end
-- ==== Proof.KernelValue.lean ====
/-
  What the kernel's program leaves in its result array, as the network's function of the arguments.

  The program is three stretches of host operations with a pallas_call after the first and after the second. The
  contents of the buffers at each boundary are a fold through the operations; it is read one segment at a time
  (the stretches in `Stretches`, the calls in `RowBlocks0` and `RowBlocks1`):
    * the first stretch makes the edges' sources, targets and weights from the edge list, and touches no argument;
    * the first call leaves `x · W1` in its result array and every other array as it found it;
    * the second stretch makes the hidden layer from that product, the edges and the first bias;
    * the second call leaves `hidden · W2`;
    * the last stretch propagates once more and adds the second bias.
  Chained, the result array ends at `Cert.Gcn.output` of the six argument arrays.
-/
import proofs.«166135_j8787503087873_1_alg».proof.Proof.Gen.KernelIdeal.Frame
import proofs.«166135_j8787503087873_1_alg».proof.Proof.Aggregate
import proofs.«166135_j8787503087873_1_alg».proof.Proof.RowBlocks0
import proofs.«166135_j8787503087873_1_alg».proof.Proof.RowBlocks1
import proofs.«166135_j8787503087873_1_alg».proof.Proof.Stretches

set_option maxRecDepth 16384

noncomputable section

namespace Cert.Gcn.KernelValue

open Cert.KernelIdeal Cert.KernelIdeal.Gen Cert.Gcn Idealize.ShloMosaic Idealize.ShloMosaic.TcCoe Idealize.SL.Sem
open Cert.Gcn.Stretches

/-! ## The chain -/

variable (m : (ℓ : Loc nD τ sig) → Buf (Elt Ideal) ℓ) (ρ : Dev nD → PrngReg)

/-- The result array after the run is the network's output of the six arguments as launched. -/
theorem result_eq (c : Dev nD) :
    W8 (F := Ideal) m ρ c (Proc.devRef .tc main_v66)
      = output (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- at the first call's entry
  have s3 : W3 m ρ c (Proc.devRef .tc main_v3) = sources (m ((c : Thread nD τ).loc main_arg1)) := entry_sources (W0 m ρ c)
  have t3 : W3 m ρ c (Proc.devRef .tc main_v6) = targets (m ((c : Thread nD τ).loc main_arg1)) := entry_targets (W0 m ρ c)
  have w3 : W3 m ρ c (Proc.devRef .tc main_v31)
      = edgeWeight (sources (m ((c : Thread nD τ).loc main_arg1))) (targets (m ((c : Thread nD τ).loc main_arg1))) := entry_weights (W0 m ρ c)
  obtain ⟨a0, a2, a3, a4, a5⟩ := entry_keeps (W0 m ρ c)
  have a0 : W3 m ρ c (Proc.devRef .tc main_arg0) = m ((c : Thread nD τ).loc main_arg0) := a0
  have a2 : W3 m ρ c (Proc.devRef .tc main_arg2) = m ((c : Thread nD τ).loc main_arg2) := a2
  have a3 : W3 m ρ c (Proc.devRef .tc main_arg3) = m ((c : Thread nD τ).loc main_arg3) := a3
  have a4 : W3 m ρ c (Proc.devRef .tc main_arg4) = m ((c : Thread nD τ).loc main_arg4) := a4
  have a5 : W3 m ρ c (Proc.devRef .tc main_arg5) = m ((c : Thread nD τ).loc main_arg5) := a5
  -- at the first call's exit
  have p4 : W4 m ρ c (Proc.devRef .tc main_v32) = timesW1 (m ((c : Thread nD τ).loc main_arg0)) (m ((c : Thread nD τ).loc main_arg2)) := by
    refine (W4_arr m ρ c 2).trans ((Rows0.product_eq (V3 m ρ) c).trans ?_)
    show timesW1 (W3 m ρ c (Proc.devRef .tc main_arg0)) (W3 m ρ c (Proc.devRef .tc main_arg2)) = _
    rw [a0, a2]
  have s4 : W4 m ρ c (Proc.devRef .tc main_v3) = sources (m ((c : Thread nD τ).loc main_arg1)) := (W4_of_ne m ρ c main_v3 (by decide)).trans s3
  have t4 : W4 m ρ c (Proc.devRef .tc main_v6) = targets (m ((c : Thread nD τ).loc main_arg1)) := (W4_of_ne m ρ c main_v6 (by decide)).trans t3
  have w4 : W4 m ρ c (Proc.devRef .tc main_v31) = _ := (W4_of_ne m ρ c main_v31 (by decide)).trans w3
  have b4 : W4 m ρ c (Proc.devRef .tc main_arg3) = m ((c : Thread nD τ).loc main_arg3) := (W4_of_ne m ρ c main_arg3 (by decide)).trans a3
  have c4 : W4 m ρ c (Proc.devRef .tc main_arg4) = m ((c : Thread nD τ).loc main_arg4) := (W4_of_ne m ρ c main_arg4 (by decide)).trans a4
  have d4 : W4 m ρ c (Proc.devRef .tc main_arg5) = m ((c : Thread nD τ).loc main_arg5) := (W4_of_ne m ρ c main_arg5 (by decide)).trans a5
  -- at the second call's entry
  obtain ⟨ks, kt, kw, k4, k5⟩ := middle_keeps (W4 m ρ c)
  have h6 : W6 m ρ c (Proc.devRef .tc main_v49)
      = hidden (timesW1 (m ((c : Thread nD τ).loc main_arg0)) (m ((c : Thread nD τ).loc main_arg2))) (sources (m ((c : Thread nD τ).loc main_arg1)))
          (targets (m ((c : Thread nD τ).loc main_arg1))) (edgeWeight (sources (m ((c : Thread nD τ).loc main_arg1))) (targets (m ((c : Thread nD τ).loc main_arg1))))
          (m ((c : Thread nD τ).loc main_arg3)) := by
    refine (middle_hidden (W4 m ρ c)).trans ?_
    rw [p4, s4, t4, w4, b4]
  have s6 : W6 m ρ c (Proc.devRef .tc main_v3) = sources (m ((c : Thread nD τ).loc main_arg1)) := ks.trans s4
  have t6 : W6 m ρ c (Proc.devRef .tc main_v6) = targets (m ((c : Thread nD τ).loc main_arg1)) := kt.trans t4
  have w6 : W6 m ρ c (Proc.devRef .tc main_v31) = _ := kw.trans w4
  have c6 : W6 m ρ c (Proc.devRef .tc main_arg4) = m ((c : Thread nD τ).loc main_arg4) := k4.trans c4
  have d6 : W6 m ρ c (Proc.devRef .tc main_arg5) = m ((c : Thread nD τ).loc main_arg5) := k5.trans d4
  -- at the second call's exit
  have p7 : W7 m ρ c (Proc.devRef .tc main_v50) = timesW2 (W6 m ρ c (Proc.devRef .tc main_v49)) (W6 m ρ c (Proc.devRef .tc main_arg4)) :=
    (W7_arr m ρ c 2).trans (Rows1.product_eq (V6 m ρ) c)
  have s7 : W7 m ρ c (Proc.devRef .tc main_v3) = sources (m ((c : Thread nD τ).loc main_arg1)) := (W7_of_ne m ρ c main_v3 (by decide)).trans s6
  have t7 : W7 m ρ c (Proc.devRef .tc main_v6) = targets (m ((c : Thread nD τ).loc main_arg1)) := (W7_of_ne m ρ c main_v6 (by decide)).trans t6
  have w7 : W7 m ρ c (Proc.devRef .tc main_v31) = _ := (W7_of_ne m ρ c main_v31 (by decide)).trans w6
  have d7 : W7 m ρ c (Proc.devRef .tc main_arg5) = m ((c : Thread nD τ).loc main_arg5) := (W7_of_ne m ρ c main_arg5 (by decide)).trans d6
  -- the last stretch
  refine (last_output (W7 m ρ c)).trans ?_
  rw [p7, s7, t7, w7, d7, h6, c6]
  rfl

end Cert.Gcn.KernelValue

end
-- ==== Proof.RefProducts.lean ====
/-
  The host's two matrix products over the extended reals.

  The reference multiplies whole matrices with one `dot_general` each, contracting one axis: entry `(r, c)` of
  `A · B` is `∑ k, A[r, k] · B[k, c]`. These are the products `Cert.Gcn.timesW1` and `Cert.Gcn.timesW2` that the
  kernel's row blocks assemble.
-/
import proofs.«166135_j8787503087873_1_alg».proof.Proof.Gen.ReferenceIdeal
import proofs.«166135_j8787503087873_1_alg».proof.Proof.Aggregate
import proofs.«166135_j8787503087873_1_alg».proof.Proof.LibDotAt

noncomputable section

namespace Cert.Gcn.RefProducts

open Cert.ReferenceIdeal Cert.ReferenceIdeal.Gen Idealize.ShloMosaic Idealize.ShloMosaic.TcCoe Idealize.SL.Sem
open Idealize.ShloMosaic.ValueIdx

theorem lhs1_axis0 (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem lhs1_axis1 (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
theorem rhs1_axis0 (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
theorem rhs1_axis1 (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The host's first product is `x · W1`. -/
theorem times1_eq (x : FVec Ideal S100000x512 .f32) (W : FVec Ideal S512x16 .f32) :
    Host.dotGeneral dot_S100000x512_S512x16_S100000x16_1_0_0_1_n_n none x W = Cert.Gcn.timesW1 x W := by
  funext i
  unfold Cert.Gcn.timesW1
  refine Cert.Lib.DotAt.dotGeneral_at dot_S100000x512_S512x16_S100000x16_1_0_0_1_n_n none 512 rfl rfl x W i (Cert.Gcn.xAt i) (Cert.Gcn.w1At i) (fun k => ?_) (fun k => ?_)
  · have hk := contrEquiv1_symm_val dot_S100000x512_S512x16_S100000x16_1_0_0_1_n_n 512 rfl rfl k
    exact funext fun a => Fin.ext (by
      match a with
      | ⟨0, _⟩ => exact lhs1_axis0 _ _
      | ⟨1, _⟩ => exact (lhs1_axis1 _ _).trans hk)
  · have hk := contrEquiv1_symm_val dot_S100000x512_S512x16_S100000x16_1_0_0_1_n_n 512 rfl rfl k
    exact funext fun a => Fin.ext (by
      match a with
      | ⟨0, _⟩ => exact (rhs1_axis0 _ _).trans hk
      | ⟨1, _⟩ => exact rhs1_axis1 _ _)

theorem lhs2_axis0 (i : S100000x7.Idx) (q : dot_S100000x16_S16x7_S100000x7_1_0_0_1_n_n.contr.Idx) : (dot_S100000x16_S16x7_S100000x7_1_0_0_1_n_n.lhsIdx i q 0).val = (i 0).val := by
  unfold DotDims.lhsIdx
  rw [dif_neg (show ¬(0 : Fin S100000x16.rank) ∈ dot_S100000x16_S16x7_S100000x7_1_0_0_1_n_n.lhsBatch by decide), dif_pos (show (0 : Fin S100000x16.rank) ∈ dot_S100000x16_S16x7_S100000x7_1_0_0_1_n_n.lhsNonContracting by decide)]
  rfl
theorem lhs2_axis1 (i : S100000x7.Idx) (q : dot_S100000x16_S16x7_S100000x7_1_0_0_1_n_n.contr.Idx) : (dot_S100000x16_S16x7_S100000x7_1_0_0_1_n_n.lhsIdx i q 1).val = (q ⟨0, by decide⟩).val :=
  dot_S100000x16_S16x7_S100000x7_1_0_0_1_n_n.lhsIdx_val_of_single rfl i q
theorem rhs2_axis0 (i : S100000x7.Idx) (q : dot_S100000x16_S16x7_S100000x7_1_0_0_1_n_n.contr.Idx) : (dot_S100000x16_S16x7_S100000x7_1_0_0_1_n_n.rhsIdx i q 0).val = (q ⟨0, by decide⟩).val :=
  dot_S100000x16_S16x7_S100000x7_1_0_0_1_n_n.rhsIdx_val_of_single rfl i q
theorem rhs2_axis1 (i : S100000x7.Idx) (q : dot_S100000x16_S16x7_S100000x7_1_0_0_1_n_n.contr.Idx) : (dot_S100000x16_S16x7_S100000x7_1_0_0_1_n_n.rhsIdx i q 1).val = (i 1).val := by
  unfold DotDims.rhsIdx
  rw [dif_neg (show ¬(1 : Fin S16x7.rank) ∈ dot_S100000x16_S16x7_S100000x7_1_0_0_1_n_n.rhsBatch by decide), dif_pos (show (1 : Fin S16x7.rank) ∈ dot_S100000x16_S16x7_S100000x7_1_0_0_1_n_n.rhsNonContracting by decide)]
  rfl

/-- The host's second product is `h · W2`. -/
theorem times2_eq (h : FVec Ideal S100000x16 .f32) (W : FVec Ideal S16x7 .f32) :
    Host.dotGeneral dot_S100000x16_S16x7_S100000x7_1_0_0_1_n_n none h W = Cert.Gcn.timesW2 h W := by
  funext i
  unfold Cert.Gcn.timesW2
  refine Cert.Lib.DotAt.dotGeneral_at dot_S100000x16_S16x7_S100000x7_1_0_0_1_n_n none 16 rfl rfl h W i (Cert.Gcn.hAt i) (Cert.Gcn.w2At i) (fun k => ?_) (fun k => ?_)
  · have hk := contrEquiv1_symm_val dot_S100000x16_S16x7_S100000x7_1_0_0_1_n_n 16 rfl rfl k
    exact funext fun a => Fin.ext (by
      match a with
      | ⟨0, _⟩ => exact lhs2_axis0 _ _
      | ⟨1, _⟩ => exact (lhs2_axis1 _ _).trans hk)
  · have hk := contrEquiv1_symm_val dot_S100000x16_S16x7_S100000x7_1_0_0_1_n_n 16 rfl rfl k
    exact funext fun a => Fin.ext (by
      match a with
      | ⟨0, _⟩ => exact (rhs2_axis0 _ _).trans hk
      | ⟨1, _⟩ => exact rhs2_axis1 _ _)

end Cert.Gcn.RefProducts

end
-- ==== Proof.RefValue.lean ====
/-
  What the reference leaves in its result array, as the same function of the arguments.

  The reference's run ends with its result at the composed term of its 86 host operations. That term IS the network
  (`Cert.Gcn.outputWith`) with the host's two matrix products in the products' places: the same operations in the
  same order, so the two terms are one up to the names the two programs give their shape records. Over the extended
  reals the host's products are the ones the kernel's row blocks assemble (`RefProducts`).
-/
import proofs.«166135_j8787503087873_1_alg».proof.Proof.RefRun
import proofs.«166135_j8787503087873_1_alg».proof.Proof.Aggregate
import proofs.«166135_j8787503087873_1_alg».proof.Proof.RefProducts

noncomputable section

namespace Cert.Gcn.RefValue

open Cert.ReferenceIdeal Cert.ReferenceIdeal.Gen Cert.ReferenceIdeal.RunP Idealize.ShloMosaic Idealize.ShloMosaic.TcCoe Idealize.SL.Sem
open Cert.Gcn.RefProducts

/-! ## The run's term -/

section AnyFamily
variable {F : FTy → Type} [FloatOps F]

set_option maxRecDepth 16384 in
/-- The composed term of the reference's operations is the network over the host's two products, in any float family:
    operation for operation the same term. -/
theorem term_eq (m : (ℓ : Loc nD τ sig) → Buf (Elt F) ℓ) (c : Dev nD) :
    res_main_v66 (F := F) m c
      = Cert.Gcn.outputWith (F := F) (fun l r => Host.dotGeneral dot_S100000x512_S512x16_S100000x16_1_0_0_1_n_n none l r) (fun l r => Host.dotGeneral dot_S100000x16_S16x7_S100000x7_1_0_0_1_n_n none l r)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold res_main_v66
  rfl

end AnyFamily

/-- Over the extended reals the reference's result is the network's output of its arguments. -/
theorem result_eq (m : (ℓ : Loc nD τ sig) → Buf (Elt Ideal) ℓ) (c : Dev nD) :
    res_main_v66 (F := Ideal) m c
      = Cert.Gcn.output (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have e1 : (fun (l : FVec Ideal S100000x512 .f32) (r : FVec Ideal S512x16 .f32) => Host.dotGeneral dot_S100000x512_S512x16_S100000x16_1_0_0_1_n_n none l r) = Cert.Gcn.timesW1 :=
    funext fun l => funext fun r => times1_eq l r
  have e2 : (fun (l : FVec Ideal S100000x16 .f32) (r : FVec Ideal S16x7 .f32) => Host.dotGeneral dot_S100000x16_S16x7_S100000x7_1_0_0_1_n_n none l r) = Cert.Gcn.timesW2 :=
    funext fun l => funext fun r => times2_eq l r
  rw [term_eq]
  unfold Cert.Gcn.output
  exact congrArg₂ (fun p q => Cert.Gcn.outputWith (F := Ideal) p q (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) e1 e2

end Cert.Gcn.RefValue

end
-- ==== Proof.lean ====
/-
  A two-layer graph convolution whose two matrix products are Pallas kernels, against the same network with the
  products left to the host: equal over the extended reals.

  The two programs apply the same host operations in the same order — the edges' sources and targets from the edge
  list with one self loop per node, the degrees, the symmetric `d^(-1/2)` weights, and per layer gather, scale,
  scatter-add, bias (and the rectifier after the first layer) — and differ only in the products `x · W1` and
  `hidden · W2`. The kernel computes each product one block of rows at a time (20 blocks of 5,000 rows; 4 of 25,000),
  each block a product into a zero accumulator after a change of format that is the identity over the extended reals;
  the reference computes it whole. Entry `(r, c)` of either is `∑ k, A[r, k] · B[k, c]`: a row of the result depends
  on the same row of `A` only, so cutting the rows into blocks changes no entry, and no sum is reordered. No
  finiteness is needed: nothing is distributed, cancelled or moved across a sum.

  The kernel's three frames are the generated ones; its result array is read off the generated run's last boundary
  (`KernelRun`, `KernelValue` over `RowBlocks0` / `RowBlocks1`); the reference's run is `RefRun` and its term is read
  in `RefValue`; both end at `Cert.Gcn.output` of the arguments (`Aggregate`). The idealization rewrote nothing, so
  `preserves` is `True`.
-/
import proofs.«166135_j8787503087873_1_alg».proof.Defs
import proofs.«166135_j8787503087873_1_alg».proof.Proof.Gen.Kernel
import proofs.«166135_j8787503087873_1_alg».proof.Proof.Gen.Kernel.Skeleton
import proofs.«166135_j8787503087873_1_alg».proof.Proof.Gen.Kernel.Launch
import proofs.«166135_j8787503087873_1_alg».proof.Proof.Gen.Kernel.Points
import proofs.«166135_j8787503087873_1_alg».proof.Proof.Gen.Kernel.Frame
import proofs.«166135_j8787503087873_1_alg».proof.Proof.Gen.KernelIdeal
import proofs.«166135_j8787503087873_1_alg».proof.Proof.Gen.KernelIdeal.Skeleton
import proofs.«166135_j8787503087873_1_alg».proof.Proof.Gen.KernelIdeal.Launch
import proofs.«166135_j8787503087873_1_alg».proof.Proof.Gen.KernelIdeal.Points
import proofs.«166135_j8787503087873_1_alg».proof.Proof.Gen.KernelIdeal.Frame
import proofs.«166135_j8787503087873_1_alg».proof.Proof.Gen.ReferenceIdeal
import proofs.«166135_j8787503087873_1_alg».proof.Proof.Gen.Pre_finite_inputs
import proofs.«166135_j8787503087873_1_alg».proof.Proof.RefRun
import proofs.«166135_j8787503087873_1_alg».proof.Proof.KernelRun
import proofs.«166135_j8787503087873_1_alg».proof.Proof.KernelValue
import proofs.«166135_j8787503087873_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the network's output of the arguments in their result arrays, and the arguments agree. -/
theorem algebraic : Cert.algebraic_KernelIdeal_ReferenceIdeal := by
  intro m ρ m' ρ' _ hagree
  refine ⟨fun c => Cert.Gcn.output (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.result_eq m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5⟩ := hagree c
    rw [Cert.Gcn.RefValue.result_eq m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
